-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x131072 : Shape := ⟨2, ![512, 131072]⟩
abbrev S131072 : Shape := ⟨1, ![131072]⟩
abbrev S512 : Shape := ⟨1, ![512]⟩
abbrev S_ : Shape := ⟨0, ![]⟩

class Facts : Prop where
  bcast_S_S512x131072 : S_.BroadcastsInDim S512x131072 (![] : Fin 0 → Fin S512x131072.rank)
  reducesTo_S512x131072_S_d0_1 : S512x131072.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S512x131072 .f32) (main_arg1 : IVec S131072 32) (main_arg2 : IVec S512 32) : IVec S_ 1 :=
  let main_v0 : FVec F S512x131072 .f32 := Host.absf main_arg0
  let main_cst : FVec F S_ .f32 := constant S_ .f32 0x7F800000#32
  let main_v1 : FVec F S512x131072 .f32 := broadcastInDim S512x131072 ![] bcast_S_S512x131072 main_cst
  let main_v2 : IVec S512x131072 1 := cmpf .olt main_v0 main_v1
  let main_c : IVec S_ 1 := constantI S_ 1 1#1
  let main_v3 : IVec S_ 1 := (fun x v => Host.reduce IntOp.andi x v reducesTo_S512x131072_S_d0_1 h_S_) main_v2 main_c
  let main_c_0 : IVec S_ 32 := constantI S_ 32 0#32
  let main_v4 : IVec S512 32 := broadcastInDim S512 ![] bcast_S_S512 main_c_0
  let main_v5 : IVec S512 1 := cmpi .sge main_arg2 main_v4
  let main_c_1 : IVec S_ 1 := constantI S_ 1 1#1
  let main_v6 : IVec S_ 1 := (fun x v => Host.reduce IntOp.andi x v reducesTo_S512_S_d0 h_S_) main_v5 main_c_1
  let main_v7 : IVec S_ 1 := andi main_v3 main_v6
  main_v7
-- ==== Kernel.lean ====
abbrev S512x131072 : Shape := ⟨2, ![512, 131072]⟩
abbrev S131072 : Shape := ⟨1, ![131072]⟩
abbrev S512 : Shape := ⟨1, ![512]⟩
abbrev S_ : Shape := ⟨0, ![]⟩
abbrev S512x1 : Shape := ⟨2, ![512, 1]⟩
abbrev S1x131072 : Shape := ⟨2, ![1, 131072]⟩
abbrev S32x1 : Shape := ⟨2, ![32, 1]⟩
abbrev S32x131072 : Shape := ⟨2, ![32, 131072]⟩
abbrev S32x8192 : Shape := ⟨2, ![32, 8192]⟩
abbrev S1x8192 : Shape := ⟨2, ![1, 8192]⟩
abbrev S32 : Shape := ⟨1, ![32]⟩

abbrev nBuf : Space → Nat
  | .hbm => 42
  | .vmem => 11
  | .smem => 0
  | _ => 0

abbrev bufTy : (tb : Table) → Fin (tcTables nBuf tb) → BufTy
  | .hbm, ⟨0, _⟩ => ⟨S512x131072, .f32⟩
  | .hbm, ⟨1, _⟩ => ⟨S131072, .i32⟩
  | .hbm, ⟨2, _⟩ => ⟨S512, .i32⟩
  | .hbm, ⟨3, _⟩ => ⟨S_, .i32⟩
  | .hbm, ⟨4, _⟩ => ⟨S512, .i32⟩
  | .hbm, ⟨5, _⟩ => ⟨S512, .i1⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S512x1, .i32⟩
  | .hbm, ⟨11, _⟩ => ⟨S512, .i32⟩
  | .hbm, ⟨12, _⟩ => ⟨S1x131072, .i32⟩
  | .hbm, ⟨13, _⟩ => ⟨S512x1, .i32⟩
  | .hbm, ⟨14, _⟩ => ⟨S512x1, .i32⟩
  | .hbm, ⟨15, _⟩ => ⟨S512x1, .f32⟩
  | .hbm, ⟨16, _⟩ => ⟨S512x1, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .i1⟩
  | .hbm, ⟨28, _⟩ => ⟨S_, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S_, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S32x1, .i32⟩
  | .local _ .vmem, ⟨1, _⟩ => ⟨S32x1, .i32⟩
  | .local _ .vmem, ⟨2, _⟩ => ⟨S32x131072, .f32⟩
  | .local _ .vmem, ⟨3, _⟩ => ⟨S32x131072, .f32⟩
  | .local _ .vmem, ⟨4, _⟩ => ⟨S1x131072, .i32⟩
  | .local _ .vmem, ⟨5, _⟩ => ⟨S32x1, .i32⟩
  | .local _ .vmem, ⟨6, _⟩ => ⟨S32x1, .i32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | _, _ => ⟨S512x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8192_i32 : BitVec 32 := 8192#32
  let v10 : BitVec 32 := Scalar.muli arg7 c8192_i32
  v10
def k0_off1 (k0_t1 : Fin k0_t1_loop.trips) : Fin 2 → Nat :=
  let c0_9 : Index := 0#32
  let c0_i32 : BitVec 32 := 0#32
  let c1_i32 : BitVec 32 := 1#32
  let arg7 : BitVec 32 := Scf.iv c0_i32 c1_i32 k0_t1
  let c8192_i32 : BitVec 32 := 8192#32
  let v10 : BitVec 32 := Scalar.muli arg7 c8192_i32
  let v11 : BitVec 32 := v10
  let v12 : Index := Scalar.indexCast v11
  ![0, v12.toNat]
def k0_off2 (k0_t1 : Fin k0_t1_loop.trips) : Fin 2 → Nat :=
  let c0_10 : Index := 0#32
  let c0_i32 : BitVec 32 := 0#32
  let c1_i32 : BitVec 32 := 1#32
  let arg7 : BitVec 32 := Scf.iv c0_i32 c1_i32 k0_t1
  let c8192_i32 : BitVec 32 := 8192#32
  let v10 : BitVec 32 := Scalar.muli arg7 c8192_i32
  let v11 : BitVec 32 := v10
  let v14 : Index := Scalar.indexCast v11
  ![0, v14.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x131072 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  shapeCasts_S131072_S1x131072 : S131072.ShapeCasts S1x131072
  shapeCasts_S512_S512x1 : S512.ShapeCasts S512x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  h_S32x8192 : 0 < S32x8192.numel
  h_S1x8192 : 0 < S1x8192.numel
  shapeCasts_S1x8192_S1x8192 : S1x8192.ShapeCasts S1x8192
  iota_S32x8192_d1_w32 : S32x8192.Iotas .tc 32 [1]
  broadcasts_S32x1_S32x8192 : S32x1.Broadcasts S32x8192
  broadcasts_S1x8192_S32x8192 : S1x8192.Broadcasts S32x8192
  reduces_S32x8192_S32 : S32x8192.Reduces [1] S32
  shapeCasts_S32_S32x1 : S32.ShapeCasts S32x1
  shapeCasts_S512x1_S512 : S512x1.ShapeCasts S512
  reducesTo_S512_S_d0 : S512.ReducesTo [0] S_
  h_S_ : 0 < S_.numel
  gather_S131072_S512x1_S512_n_0_n_n_0_1_1_wf : GatherDims.WF S131072 S512x1 S512 [] [0] [] [0] [] 1 ![1]
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S32x8192.size a ≤ S32x131072.size a
  k0_off2_inb : ∀ k0_t1 : Fin k0_t1_loop.trips, ∀ a, (k0_off2 k0_t1) a + S1x8192.size a ≤ S1x131072.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1.size a ≤ S512x1.size a
  hwx0_0 : ∀ i : grid0.Coords, EltTy.bits .i32 = 32 ∨ (Rect.block (s := S512x1) S32x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x131072.size a ≤ S512x131072.size a
  hwx0_1 : ∀ i : grid0.Coords, EltTy.bits .f32 = 32 ∨ (Rect.block (s := S512x131072) S32x131072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x131072.size a ≤ S1x131072.size a
  hwx0_2 : ∀ i : grid0.Coords, EltTy.bits .i32 = 32 ∨ (Rect.block (s := S1x131072) S1x131072.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S512x1.size a
  hwx0_3 : ∀ i : grid0.Coords, EltTy.bits .i32 = 32 ∨ (Rect.block (s := S512x1) S32x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S512x1.size a
  hwx0_4 : ∀ i : grid0.Coords, EltTy.bits .f32 = 32 ∨ (Rect.block (s := S512x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S512x1.size a
  hwx0_5 : ∀ i : grid0.Coords, EltTy.bits .f32 = 32 ∨ (Rect.block (s := S512x1) S32x1.size (cc0_transform_5 i) (hinb0_5 i)).WholeWords (EltTy.packing .f32)

variable [Facts₀]

def gather_S131072_S512x1_S512_n_0_n_n_0_1_1 : GatherDims S131072 S512x1 S512 where
  offsetDims := []
  collapsedSliceDims := [0]
  operandBatchingDims := []
  startIndicesBatchingDims := []
  startIndexMap := [0]
  indexVectorDim := 1
  sliceSizes := ![1]
  wf := gather_S131072_S512x1_S512_n_0_n_n_0_1_1_wf

abbrev win0_0 : Pipeline.Window sig grid0 :=
  Pipeline.Window.ofSpec (Memref.whole main_v8) S32x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x131072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S32x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S32x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x131072 : Shape := ⟨2, ![512, 131072]⟩
abbrev S131072 : Shape := ⟨1, ![131072]⟩
abbrev S512 : Shape := ⟨1, ![512]⟩
abbrev S_ : Shape := ⟨0, ![]⟩
abbrev S512x1 : Shape := ⟨2, ![512, 1]⟩
abbrev S512x2 : Shape := ⟨2, ![512, 2]⟩
abbrev S1x131072 : Shape := ⟨2, ![1, 131072]⟩

abbrev nBuf : Space → Nat
  | .hbm => 71
  | .vmem => 0
  | .smem => 0
  | _ => 0

abbrev bufTy : (tb : Table) → Fin (tcTables nBuf tb) → BufTy
  | .hbm, ⟨0, _⟩ => ⟨S512x131072, .f32⟩
  | .hbm, ⟨1, _⟩ => ⟨S131072, .i32⟩
  | .hbm, ⟨2, _⟩ => ⟨S512, .i32⟩
  | .hbm, ⟨3, _⟩ => ⟨S512x131072, .f32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512, .i32⟩
  | .hbm, ⟨19, _⟩ => ⟨S512x1, .i32⟩
  | .hbm, ⟨20, _⟩ => ⟨S512x1, .i32⟩
  | .hbm, ⟨21, _⟩ => ⟨S512x2, .i32⟩
  | .hbm, ⟨22, _⟩ => ⟨S_, .f32⟩
  | .hbm, ⟨23, _⟩ => ⟨S512, .f32⟩
  | .hbm, ⟨24, _⟩ => ⟨S512x131072, .f32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S512, .i32⟩
  | .hbm, ⟨34, _⟩ => ⟨S512x1, .i32⟩
  | .hbm, ⟨35, _⟩ => ⟨S1x131072, .i32⟩
  | .hbm, ⟨36, _⟩ => ⟨S512x131072, .i32⟩
  | .hbm, ⟨37, _⟩ => ⟨S512x131072, .i32⟩
  | .hbm, ⟨38, _⟩ => ⟨S512x131072, .i1⟩
  | .hbm, ⟨39, _⟩ => ⟨S512x131072, .f32⟩
  | .hbm, ⟨40, _⟩ => ⟨S512x131072, .f32⟩
  | .hbm, ⟨41, _⟩ => ⟨S_, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S512, .f32⟩
  | .hbm, ⟨51, _⟩ => ⟨S_, .f32⟩
  | .hbm, ⟨52, _⟩ => ⟨S512, .f32⟩
  | .hbm, ⟨53, _⟩ => ⟨S512, .i1⟩
  | .hbm, ⟨54, _⟩ => ⟨S_, .f32⟩
  | .hbm, ⟨55, _⟩ => ⟨S512, .f32⟩
  | .hbm, ⟨56, _⟩ => ⟨S512, .i1⟩
  | .hbm, ⟨57, _⟩ => ⟨S_, .f32⟩
  | .hbm, ⟨58, _⟩ => ⟨S_, .f32⟩
  | .hbm, ⟨59, _⟩ => ⟨S512, .f32⟩
  | .hbm, ⟨60, _⟩ => ⟨S512, .f32⟩
  | .hbm, ⟨61, _⟩ => ⟨S512, .f32⟩
  | .hbm, ⟨62, _⟩ => ⟨S_, .f32⟩
  | .hbm, ⟨63, _⟩ => ⟨S_, .f32⟩
  | .hbm, ⟨64, _⟩ => ⟨S512, .f32⟩
  | .hbm, ⟨65, _⟩ => ⟨S512, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S512x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_call0_v0 : Ref sig .tc := ⟨.hbm, 58, rfl⟩
abbrev main_call0_v1 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_call1_v0 : Ref sig .tc := ⟨.hbm, 63, rfl⟩
abbrev main_call1_v1 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  bcast_S131072_S1x131072_1 : S131072.BroadcastsInDim S1x131072 (![1] : Fin 1 → Fin S1x131072.rank)
  bcast_S512x1_S512x131072_0_1 : S512x1.BroadcastsInDim S512x131072 (![0, 1] : Fin 2 → Fin S512x131072.rank)
  bcast_S1x131072_S512x131072_0_1 : S1x131072.BroadcastsInDim S512x131072 (![0, 1] : Fin 2 → Fin S512x131072.rank)
  reducesTo_S512x131072_S512_d1 : S512x131072.ReducesTo [1] S512
  h_S_ : 0 < S_.numel
  reducesTo_S512_S_d0 : S512.ReducesTo [0] S_
  scatter_S512x131072_S512x2_S512_n_01_01_1_wf : ScatterDims.WF S512x131072 S512x2 S512 [] [0, 1] [0, 1] 1
  gather_S131072_S512x1_S512_n_0_n_n_0_1_1_wf : GatherDims.WF S131072 S512x1 S512 [] [0] [] [0] [] 1 ![1]

variable [Facts₀]

def scatter_S512x131072_S512x2_S512_n_01_01_1 : ScatterDims S512x131072 S512x2 S512 where
  updateWindowDims := []
  insertedWindowDims := [0, 1]
  scatterDimsToOperandDims := [0, 1]
  indexVectorDim := 1
  wf := scatter_S512x131072_S512x2_S512_n_01_01_1_wf
def gather_S131072_S512x1_S512_n_0_n_n_0_1_1 : GatherDims S131072 S512x1 S512 where
  offsetDims := []
  collapsedSliceDims := [0]
  operandBatchingDims := []
  startIndicesBatchingDims := []
  startIndexMap := [0]
  indexVectorDim := 1
  sliceSizes := ![1]
  wf := gather_S131072_S512x1_S512_n_0_n_n_0_1_1_wf

class Facts : Prop extends Facts₀ where

variable [Facts]
-- ==== Proof.KernelRun.lean ====
/-
  What one grid point's body leaves in its two output blocks, as a recursion over the sixteen trips of its loop.

  A trip k loads the k-th stretch of 8192 columns of the point's 32 rows of x and the same stretch of the labels, and
  yields, from the pair (a, b) carried so far, the pair (a + the rows' masked sums over the stretch, b + the rows' sums
  over the stretch): the two payloads of the loop's yield. The pair starts at two zero columns. After the last trip the
  body stores the first component whole into the first output block and the second into the second.
-/
import proofs.«426123_j24352464569138_3_alg».proof.Proof.Gen.KernelIdeal.Frame
import Idealize.ShloMosaic.Lib.Pipeline.Value

set_option maxRecDepth 16384

noncomputable section

namespace Cert.Nca.Kernel

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-- Stretch k of the point's block of x: columns 8192 k … 8192 k + 8191 of its 32 rows. -/
abbrev xChunk (x1 : Vec F S32x131072 .f32) (k : Fin k0_t1_loop.trips) : Vec F S32x8192 .f32 :=
  View.ld x1 (Rect.unit (s := S32x131072) (k0_off1 k) S32x8192.size (k0_off1_inb k))

/-- Stretch k of the labels. -/
abbrev labChunk (x2 : Vec F S1x131072 .i32) (k : Fin k0_t1_loop.trips) : Vec F S1x8192 .i32 :=
  View.ld x2 (Rect.unit (s := S1x131072) (k0_off2 k) S1x8192.size (k0_off2_inb k))

/-- The pair carried before trip n: two zero columns before trip 0, and after trip n what the trip's two payloads
    make of the pair before it and the trip's stretches. -/
def carried (x0 x3 : Vec F S32x1 .i32) (x1 : Vec F S32x131072 .f32) (x2 : Vec F S1x131072 .i32) :
    ℕ → FVec F S32x1 .f32 × FVec F S32x1 .f32
  | 0 => (k0_pay1 (F := F), k0_pay2 (F := F))
  | n + 1 =>
    if h : n < k0_t1_loop.trips then
      (k0_pay4 x0 x3 ⟨n, h⟩ (carried x0 x3 x1 x2 n).1 (xChunk x1 ⟨n, h⟩) (labChunk x2 ⟨n, h⟩),
       k0_pay5 x0 ⟨n, h⟩ (carried x0 x3 x1 x2 n).2 (xChunk x1 ⟨n, h⟩))
    else carried x0 x3 x1 x2 n

/-- The loop's state before trip n, from whole staging buffers holding the blocks, is `carried`: each trip's yield is
    its two payloads of the carried pair and of the trip's two loads. -/
theorem st_eq_carried (c : Dev nD) (i : grid0.Coords) (arg1 : Memref sig .tc .vmem S32x1 .i32) (harg1 : arg1.IsWhole) (arg2 : Memref sig .tc .vmem S32x131072 .f32) (harg2 : arg2.IsWhole) (arg3 : Memref sig .tc .vmem S1x131072 .i32) (harg3 : arg3.IsWhole) (arg4 : Memref sig .tc .vmem S32x1 .i32) (harg4 : arg4.IsWhole) (arg5 : Memref sig .tc .vmem S32x1 .f32) (harg5 : arg5.IsWhole) (arg6 : Memref sig .tc .vmem S32x1 .f32) (harg6 : arg6.IsWhole)
    (x0 x3 : Vec F S32x1 .i32) (x1 : Vec F S32x131072 .f32) (x2 : Vec F S1x131072 .i32) (n : ℕ) :
    st_k0_t1 (F := F) Variants.none c none i arg1 harg1 arg2 harg2 arg3 harg3 arg4 harg4 arg5 harg5 arg6 harg6 x0 x3
        (harg2.unread x1) (harg3.unread x2) (k0_pay1 (F := F), k0_pay2 (F := F)) n
      = carried x0 x3 x1 x2 n := by
  induction n with
  | zero => rfl
  | succ n ih =>
    rw [st_k0_t1.eq_2, carried]
    unfold st_k0_t1Step
    by_cases h : n < k0_t1_loop.trips
    · rw [dif_pos h, dif_pos h, ih]
      unfold tripR_k0_t1 trip_k0_t1
      dsimp only
      simp only [View.readAt_eq_ld, harg2.read_unread, harg3.read_unread]
    · rw [dif_neg h, dif_neg h, ih]

/-- The first output block after the body: the first component of the pair carried after the last trip. -/
theorem out4_eq (c : Dev nD) (i : grid0.Coords) (arg1 : Memref sig .tc .vmem S32x1 .i32) (harg1 : arg1.IsWhole) (arg2 : Memref sig .tc .vmem S32x131072 .f32) (harg2 : arg2.IsWhole) (arg3 : Memref sig .tc .vmem S1x131072 .i32) (harg3 : arg3.IsWhole) (arg4 : Memref sig .tc .vmem S32x1 .i32) (harg4 : arg4.IsWhole) (arg5 : Memref sig .tc .vmem S32x1 .f32) (harg5 : arg5.IsWhole) (arg6 : Memref sig .tc .vmem S32x1 .f32) (harg6 : arg6.IsWhole)
    (x0 : Vec F S32x1 .i32) (x1 : Vec F S32x131072 .f32) (x2 : Vec F S1x131072 .i32) (x3 : Vec F S32x1 .i32) :
    out0_A_4 c i arg1 harg1 arg2 harg2 arg3 harg3 arg4 harg4 arg5 harg5 arg6 harg6 x0 x1 x2 x3
      = (carried x0 x3 x1 x2 k0_t1_loop.trips).1 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  rw [View.canon_unit_zero hz]
  simp only [View.readAt_eq_ld, harg1.read_unread, harg4.read_unread, View.ld_unit_zero (S := S32x1) hz]
  exact congrArg Prod.fst (st_eq_carried c i arg1 harg1 arg2 harg2 arg3 harg3 arg4 harg4 arg5 harg5 arg6 harg6 x0 x3 x1 x2 _)

/-- The second output block after the body: the second component. -/
theorem out5_eq (c : Dev nD) (i : grid0.Coords) (arg1 : Memref sig .tc .vmem S32x1 .i32) (harg1 : arg1.IsWhole) (arg2 : Memref sig .tc .vmem S32x131072 .f32) (harg2 : arg2.IsWhole) (arg3 : Memref sig .tc .vmem S1x131072 .i32) (harg3 : arg3.IsWhole) (arg4 : Memref sig .tc .vmem S32x1 .i32) (harg4 : arg4.IsWhole) (arg5 : Memref sig .tc .vmem S32x1 .f32) (harg5 : arg5.IsWhole) (arg6 : Memref sig .tc .vmem S32x1 .f32) (harg6 : arg6.IsWhole)
    (x0 : Vec F S32x1 .i32) (x1 : Vec F S32x131072 .f32) (x2 : Vec F S1x131072 .i32) (x3 : Vec F S32x1 .i32) :
    out0_A_5 c i arg1 harg1 arg2 harg2 arg3 harg3 arg4 harg4 arg5 harg5 arg6 harg6 x0 x1 x2 x3
      = (carried x0 x3 x1 x2 k0_t1_loop.trips).2 := by
  unfold out0_A_5
  rw [View.read_writes_eq_canon _ _ _ (cover0_A_5 c i arg1 harg1 arg2 harg2 arg3 harg3 arg4 harg4 arg5 harg5 arg6 harg6 x0 x1 x2 x3)]
  unfold kernelRun0_A
  dsimp only
  rw [View.canon_unit_zero hz]
  simp only [View.readAt_eq_ld, harg1.read_unread, harg4.read_unread, View.ld_unit_zero (S := S32x1) hz]
  exact congrArg Prod.snd (st_eq_carried c i arg1 harg1 arg2 harg2 arg3 harg3 arg4 harg4 arg5 harg5 arg6 harg6 x0 x3 x1 x2 _)

end Cert.Nca.Kernel

end
-- ==== Proof.Spec.lean ====
/-
  The mathematics both programs compute, stated once over the argument arrays: x (512 rows of 131072 reals), the
  labels of the 131072 columns, and for each row the index of its own column.

  For row r let own(r) be the word indexes[r]. The row's exponentials with the own column removed are
      ez r j = 0 if own(r) is the word of j, else exp (x r j)            (j < 131072);
  the row's label is y r = labels[wrap(indexes[r])], the gather both programs spend on the wrapped index;
      P r = sum over j of (ez r j if y r = labels j, else 0),        Z r = sum over j of ez r j,
  and the result is one scalar function `tail` of the two vectors P and Z (quotients, a guarded logarithm, a sum
  over the rows, a sign, a division by 512), the same operations in both programs.
  One program sums a row in sixteen consecutive stretches of 8192 columns, adding each stretch's sum to a running
  value that starts at zero; the other sums the row at once from zero. The two agree by associativity and
  commutativity of addition on the extended reals (`sum_chunks`, `fold_add`): no finiteness is needed.
-/
import Idealize.ShloMosaic.PureOps.Ideal
import Idealize.ShloMosaic.PureOps.Ideal.Laws
import Idealize.ShloMosaic.Lib.ValueIdx

noncomputable section

open scoped BigOperators

namespace Cert.Nca

open Idealize.ShloMosaic Idealize.ShloMosaic.ValueIdx

abbrev SX : Shape := ⟨2, ![512, 131072]⟩
abbrev SL : Shape := ⟨1, ![131072]⟩
abbrev SB : Shape := ⟨1, ![512]⟩
abbrev S0 : Shape := ⟨0, ![]⟩
abbrev SB1 : Shape := ⟨2, ![512, 1]⟩

/-- An index below zero is wrapped by the length of the axis it indexes; any other is kept. -/
def wrapIdx (idx : IVec SB 32) : IVec SB 32 :=
  select (cmpi .slt idx (broadcastInDim SB ![] (by decide) (constantI S0 32 0#32)))
    (addi idx (broadcastInDim SB ![] (by decide) (constantI S0 32 131072#32))) idx

/-- The dimension numbers of `labels[i]` for a vector of indices `i`. -/
def takeLabel : GatherDims SL SB1 SB where
  offsetDims := []
  collapsedSliceDims := [0]
  operandBatchingDims := []
  startIndicesBatchingDims := []
  startIndexMap := [0]
  indexVectorDim := 1
  sliceSizes := ![1]

/-- Each row's label: the label of the row's own column. -/
def rowLabel (lab : IVec SL 32) (idx : IVec SB 32) : IVec SB 32 :=
  Host.gather takeLabel lab (broadcastInDim SB1 ![0] (by decide) (wrapIdx idx))

/-- Entry (r, j) of the exponentials with each row's own column set to zero. -/
def ez (x : FVec Ideal SX .f32) (idx : IVec SB 32) (r : Fin 512) (j : Fin 131072) : EReal :=
  if idx (ix1 r) = BitVec.ofNat 32 j.val then 0 else Ideal.exp (x (ix2 r j))

/-- Entry (r, j) of the same, kept where column j carries the row's label and zero elsewhere. -/
def ezSame (x : FVec Ideal SX .f32) (lab : IVec SL 32) (idx : IVec SB 32) (r : Fin 512) (j : Fin 131072) : EReal :=
  if rowLabel lab idx (ix1 r) = lab (ix1 j) then ez x idx r j else 0

/-- The row sums over the columns with the row's label … -/
def P (x : FVec Ideal SX .f32) (lab : IVec SL 32) (idx : IVec SB 32) : FVec Ideal SB .f32 :=
  fun i => ∑ j : Fin 131072, ezSame x lab idx (i 0) j

/-- … and over all columns. -/
def Z (x : FVec Ideal SX .f32) (idx : IVec SB 32) : FVec Ideal SB .f32 :=
  fun i => ∑ j : Fin 131072, ez x idx (i 0) j

/-- From the two vectors of row sums to the result: p / 1, the quotient q = p / ((z - p) + p), the logarithm of q
    where q is not zero (of 1 elsewhere, and the term dropped), summed over the rows, negated, divided by 512. -/
def tail (p z : FVec Ideal SB .f32) : FVec Ideal S0 .f32 :=
  Host.divf (Host.negf (Host.reduceAdd
    (select
      (cmpf .une
        (Host.divf (Host.divf p (broadcastInDim SB ![] (by decide) (constant (F := Ideal) S0 .f32 0x3F800000#32)))
          (addf (subf z p) (Host.divf p (broadcastInDim SB ![] (by decide) (constant (F := Ideal) S0 .f32 0x3F800000#32)))))
        (broadcastInDim SB ![] (by decide) (constant (F := Ideal) S0 .f32 0x00000000#32)))
      (Host.log (select
        (cmpf .une
          (Host.divf (Host.divf p (broadcastInDim SB ![] (by decide) (constant (F := Ideal) S0 .f32 0x3F800000#32)))
            (addf (subf z p) (Host.divf p (broadcastInDim SB ![] (by decide) (constant (F := Ideal) S0 .f32 0x3F800000#32)))))
          (broadcastInDim SB ![] (by decide) (constant (F := Ideal) S0 .f32 0x00000000#32)))
        (Host.divf (Host.divf p (broadcastInDim SB ![] (by decide) (constant (F := Ideal) S0 .f32 0x3F800000#32)))
          (addf (subf z p) (Host.divf p (broadcastInDim SB ![] (by decide) (constant (F := Ideal) S0 .f32 0x3F800000#32)))))
        (broadcastInDim SB ![] (by decide) (id (constant (F := Ideal) S0 .f32 0x3F800000#32)))))
      (broadcastInDim SB ![] (by decide) (id (constant (F := Ideal) S0 .f32 0x00000000#32))))
    (constant (F := Ideal) S0 .f32 0x00000000#32) (by decide : SB.ReducesTo [0] S0) (by decide : 0 < S0.numel)))
    (constant (F := Ideal) S0 .f32 0x44000000#32)

/-- The result as one function of the three argument arrays. -/
def loss (x : FVec Ideal SX .f32) (lab : IVec SL 32) (idx : IVec SB 32) : FVec Ideal S0 .f32 :=
  tail (P x lab idx) (Z x idx)

/-! ## Sixteen stretches of 8192 columns are the 131072 columns -/

/-- Column `8192 k + l` of stretch `k`. -/
def col (k : Fin 16) (l : Fin 8192) : Fin 131072 := ⟨8192 * k.val + l.val, by have := k.isLt; have := l.isLt; omega⟩

/-- A sum over the columns is the sum over the stretches of the sums inside each stretch. -/
theorem sum_chunks {M : Type*} [AddCommMonoid M] (g : Fin 131072 → M) :
    ∑ j : Fin 131072, g j = ∑ k : Fin 16, ∑ l : Fin 8192, g (col k l) := by
  rw [← Fintype.sum_prod_type']
  symm
  refine Fintype.sum_equiv ((finProdFinEquiv (m := 16) (n := 8192)).trans (finCongr (by norm_num)))
    (fun p : Fin 16 × Fin 8192 => g (col p.1 p.2)) g fun p => congrArg g (Fin.ext ?_)
  show 8192 * p.1.val + p.2.val = p.2.val + 8192 * p.1.val
  omega

end Cert.Nca

end
-- ==== Proof.LibColumn.lean ====
/-
  A column vector made from a vector and spread over the columns of a matrix, read at an index.

  `keepdims` reductions leave a vector `[a]` that is first given a trailing unit axis, `[a, 1]`,
  and then broadcast along it to `[a, b]`. Read at `(p, c)` the result is the vector at `p`:
  the shape cast keeps the row-major position (`p * 1 + 0 = p`), and the broadcast reads a
  unit axis at `0` whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector as a column, spread over `b` columns, reads at `(p, c)` the vector at `p`. -/
theorem column_spread_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx

end
-- ==== Proof.KernelSum.lean ====
/-
  The two output blocks of one grid point, row by row, as sums over all 131072 columns.

  Row p of the point's block: its own-column word w (the point's block of the index column), its label word y (the
  point's block of the label column), its 131072 entries of x and the 131072 labels. In stretch k the body compares
  the column numbers 8192 k + l, as 32-bit words, with w, puts 0 where they agree and exp x elsewhere; the second
  running value adds the stretch's sum of these, the first the sum of those among them whose column's label is y.
  Sixteen stretches from zero give the sums over all columns (`Cert.Nca.sum_chunks`).
-/
import proofs.«426123_j24352464569138_3_alg».proof.Proof.KernelRun
import proofs.«426123_j24352464569138_3_alg».proof.Proof.Spec
import proofs.«426123_j24352464569138_3_alg».proof.Proof.LibColumn
import Idealize.ShloMosaic.Lib.ValueLayout
import Idealize.ShloMosaic.Lib.Affine
import Idealize.ShloMosaic.PureOps.Ideal.Laws

set_option maxRecDepth 16384

noncomputable section

open scoped BigOperators

namespace Cert.Nca.Kernel

open Idealize.ShloMosaic Idealize.ShloMosaic.ValueIdx
open Cert.KernelIdeal Cert.KernelIdeal.Gen

/-- The loop has sixteen trips. -/
theorem trips_eq : k0_t1_loop.trips = 16 := by decide

/-- The first column number of stretch k, as the body computes it, is the word of 8192 k. -/
theorem stretch_word : ∀ k : Fin k0_t1_loop.trips,
    Scalar.muli (Scf.iv 0#32 1#32 k) 8192#32 = BitVec.ofNat 32 (8192 * k.val) := by decide +kernel

/-- The zeroed exponential of stretch k at (p, l): zero where the column number's word is the row's own-column word. -/
theorem pay3_apply (x0 : Vec Ideal S32x1 .i32) (k : Fin k0_t1_loop.trips) (v13 : Vec Ideal S32x8192 .f32)
    (p : Fin 32) (l : Fin 8192) :
    k0_pay3 (F := Ideal) x0 k v13 (ix2 p l)
      = if x0 (ix2 p (0 : Fin 1)) = BitVec.ofNat 32 (8192 * k.val + l.val) then 0 else Ideal.exp (v13 (ix2 p l)) := by
  unfold k0_pay3
  simp only [select, cmpi, addi, broadcast, exp, shapeCast_self]
  rw [iota_single_apply, broadcastTo_a1_ab_apply, stretch_word]
  have e : IntOp.addi (BitVec.ofNat 32 (8192 * k.val)) (BitVec.ofNat 32 (ix2 p l 1).val)
      = BitVec.ofNat 32 (8192 * k.val + l.val) := by
    show BitVec.ofNat 32 (8192 * k.val) + BitVec.ofNat 32 l.val = _
    rw [← BitVec.ofNat_add]
  rw [e]
  unfold Scalar.select
  by_cases h : x0 (ix2 p (0 : Fin 1)) = BitVec.ofNat 32 (8192 * k.val + l.val)
  · have hc : IntOp.cmpi .eq (BitVec.ofNat 32 (8192 * k.val + l.val)) (x0 (ix2 p (0 : Fin 1))) = (1 : BitVec 1) :=
      IntOp.cmpi_eq.mpr h.symm
    rw [if_pos h, if_pos hc]
    exact Ideal.ofBits_zero_f32
  · have hc : ¬ IntOp.cmpi .eq (BitVec.ofNat 32 (8192 * k.val + l.val)) (x0 (ix2 p (0 : Fin 1))) = (1 : BitVec 1) :=
      fun hc => h (IntOp.cmpi_eq.mp hc).symm
    rw [if_neg h, if_neg hc]
    rfl

/-- The index of row p with lane l put back on the reduced axis is (p, l). -/
theorem lift_eq (p : Fin 32) (l : Fin 8192) : reduces_S32x8192_S32.lift (ix1 p) l = ix2 p l :=
  funext fun a => Fin.ext (by match a with | ⟨0, _⟩ => rfl | ⟨1, _⟩ => rfl)

/-- A lane sum of a 32 × 8192 block, read at row p: the sum over the row's 8192 entries. -/
theorem lane_sum (src : FVec Ideal S32x8192 .f32) (p : Fin 32) :
    multiReduction .add [1] S32 src 0x00000000#32 reduces_S32x8192_S32 (.inl rfl) rfl (ix1 p)
      = ∑ l : Fin 8192, src (ix2 p l) :=
  (Ideal.multiReduction_add_single src 0x00000000#32 reduces_S32x8192_S32 (.inl rfl) rfl (ix1 p)).trans
    (Finset.sum_congr rfl fun l _ => congrArg src (lift_eq p l))

/-- The second running value after stretch k, at row p: the value before plus the stretch's sum of the zeroed
    exponentials of the row. -/
theorem pay5_apply (x0 : Vec Ideal S32x1 .i32) (k : Fin k0_t1_loop.trips) (b : FVec Ideal S32x1 .f32)
    (v13 : Vec Ideal S32x8192 .f32) (p : Fin 32) :
    k0_pay5 (F := Ideal) x0 k b v13 (ix2 p (0 : Fin 1))
      = b (ix2 p (0 : Fin 1)) + ∑ l : Fin 8192, k0_pay3 (F := Ideal) x0 k v13 (ix2 p l) := by
  unfold k0_pay5
  show b (ix2 p (0 : Fin 1)) + shapeCast S32x1 _ shapeCasts_S32_S32x1 (ix2 p (0 : Fin 1)) = _
  rw [shapeCast_a_a1_apply]
  exact congrArg (b (ix2 p (0 : Fin 1)) + ·) (lane_sum (k0_pay3 (F := Ideal) x0 k v13) p)

/-- The first running value after stretch k, at row p: the value before plus the stretch's sum of the zeroed
    exponentials of the row over the columns whose label word is the row's. -/
theorem pay4_apply (x0 x3 : Vec Ideal S32x1 .i32) (k : Fin k0_t1_loop.trips) (a : FVec Ideal S32x1 .f32)
    (v13 : Vec Ideal S32x8192 .f32) (v15 : Vec Ideal S1x8192 .i32) (p : Fin 32) :
    k0_pay4 (F := Ideal) x0 x3 k a v13 v15 (ix2 p (0 : Fin 1))
      = a (ix2 p (0 : Fin 1)) + ∑ l : Fin 8192,
          if x3 (ix2 p (0 : Fin 1)) = v15 (ix2 (0 : Fin 1) l) then k0_pay3 (F := Ideal) x0 k v13 (ix2 p l) else 0 := by
  unfold k0_pay4
  show a (ix2 p (0 : Fin 1)) + shapeCast S32x1 _ shapeCasts_S32_S32x1 (ix2 p (0 : Fin 1)) = _
  rw [shapeCast_a_a1_apply]
  refine congrArg (a (ix2 p (0 : Fin 1)) + ·) ?_
  refine (lane_sum _ p).trans ?_
  refine Finset.sum_congr rfl fun l _ => ?_
  show Scalar.select (IntOp.cmpi .eq (broadcastTo S32x8192 (shapeCast S32x1 x3 shapeCasts_S32x1_S32x1) broadcasts_S32x1_S32x8192 (ix2 p l))
      (broadcastTo S32x8192 (shapeCast S1x8192 v15 shapeCasts_S1x8192_S1x8192) broadcasts_S1x8192_S32x8192 (ix2 p l)))
      (k0_pay3 (F := Ideal) x0 k v13 (ix2 p l)) (FloatOps.ofBits .f32 0x00000000#32) = _
  rw [broadcastTo_a1_ab_apply, broadcastTo_1b_ab_apply, shapeCast_self, shapeCast_self]
  unfold Scalar.select
  by_cases h : x3 (ix2 p (0 : Fin 1)) = v15 (ix2 (0 : Fin 1) l)
  · have hc : IntOp.cmpi .eq (x3 (ix2 p (0 : Fin 1))) (v15 (ix2 (0 : Fin 1) l)) = (1 : BitVec 1) := IntOp.cmpi_eq.mpr h
    rw [if_pos h, if_pos hc]
  · have hc : ¬ IntOp.cmpi .eq (x3 (ix2 p (0 : Fin 1))) (v15 (ix2 (0 : Fin 1) l)) = (1 : BitVec 1) :=
      fun hc => h (IntOp.cmpi_eq.mp hc)
    rw [if_neg h, if_neg hc]
    exact Ideal.ofBits_zero_f32

/-- Stretch k of x at (p, l) is x at column 8192 k + l of row p. -/
theorem xChunk_apply (x1 : Vec Ideal S32x131072 .f32) (k : Fin k0_t1_loop.trips) (p : Fin 32) (l : Fin 8192)
    (hk : k.val < 16) :
    xChunk x1 k (ix2 p l) = x1 (ix2 p (Cert.Nca.col ⟨k.val, hk⟩ l)) := by
  refine congrArg x1 (funext fun a => Fin.ext ?_)
  have h := k0_off1_eq k
  match a with
  | ⟨0, _⟩ => show k0_off1 k 0 + 1 * p.val = p.val; rw [h]; show 0 + 1 * p.val = p.val; omega
  | ⟨1, _⟩ => show k0_off1 k 1 + 1 * l.val = 8192 * k.val + l.val; rw [h]; show 8192 * k.val + 1 * l.val = _; omega

/-- Stretch k of the labels at l is the label of column 8192 k + l. -/
theorem labChunk_apply (x2 : Vec Ideal S1x131072 .i32) (k : Fin k0_t1_loop.trips) (l : Fin 8192) (hk : k.val < 16) :
    labChunk x2 k (ix2 (0 : Fin 1) l) = x2 (ix2 (0 : Fin 1) (Cert.Nca.col ⟨k.val, hk⟩ l)) := by
  refine congrArg x2 (funext fun a => Fin.ext ?_)
  have h := k0_off2_eq k
  match a with
  | ⟨0, _⟩ => show k0_off2 k 0 + 1 * 0 = 0; rw [h]; rfl
  | ⟨1, _⟩ => show k0_off2 k 1 + 1 * l.val = 8192 * k.val + l.val; rw [h]; show 8192 * k.val + 1 * l.val = _; omega

section Rows

variable (x0 x3 : Vec Ideal S32x1 .i32) (x1 : Vec Ideal S32x131072 .f32) (x2 : Vec Ideal S1x131072 .i32) (p : Fin 32)

/-- Entry j of row p with the own column zeroed. -/
def rowEz (j : Fin 131072) : EReal :=
  if x0 (ix2 p (0 : Fin 1)) = BitVec.ofNat 32 j.val then 0 else Ideal.exp (x1 (ix2 p j))

/-- The same kept where column j carries the row's label. -/
def rowEzSame (j : Fin 131072) : EReal :=
  if x3 (ix2 p (0 : Fin 1)) = x2 (ix2 (0 : Fin 1) j) then rowEz x0 x1 p j else 0

/-- Stretch k's sum of row p, for k below sixteen (zero beyond). -/
def zStretch (k : ℕ) : EReal := if h : k < 16 then ∑ l : Fin 8192, rowEz x0 x1 p (Cert.Nca.col ⟨k, h⟩ l) else 0
def pStretch (k : ℕ) : EReal := if h : k < 16 then ∑ l : Fin 8192, rowEzSame x0 x3 x1 x2 p (Cert.Nca.col ⟨k, h⟩ l) else 0

theorem pay3_chunk (k : Fin k0_t1_loop.trips) (hk : k.val < 16) (l : Fin 8192) :
    k0_pay3 (F := Ideal) x0 k (xChunk x1 k) (ix2 p l) = rowEz x0 x1 p (Cert.Nca.col ⟨k.val, hk⟩ l) := by
  rw [pay3_apply, xChunk_apply x1 k p l hk]
  rfl

/-- The pair carried before trip n, at row p: the sums of the first n stretches. -/
theorem carried_apply (n : ℕ) (hn : n ≤ 16) :
    (carried x0 x3 x1 x2 n).1 (ix2 p (0 : Fin 1)) = ∑ k ∈ Finset.range n, pStretch x0 x3 x1 x2 p k
    ∧ (carried x0 x3 x1 x2 n).2 (ix2 p (0 : Fin 1)) = ∑ k ∈ Finset.range n, zStretch x0 x1 p k := by
  induction n with
  | zero =>
    rw [Finset.sum_range_zero, Finset.sum_range_zero]
    exact ⟨Ideal.ofBits_zero_f32, Ideal.ofBits_zero_f32⟩
  | succ n ih =>
    have hn' : n < 16 := hn
    have ht : n < k0_t1_loop.trips := by rw [trips_eq]; exact hn'
    obtain ⟨ih1, ih2⟩ := ih (Nat.le_of_lt hn')
    rw [carried, dif_pos ht, Finset.sum_range_succ, Finset.sum_range_succ]
    constructor
    · show k0_pay4 (F := Ideal) x0 x3 ⟨n, ht⟩ _ _ _ (ix2 p (0 : Fin 1)) = _
      rw [pay4_apply, ih1]
      refine congrArg (_ + ·) ?_
      unfold pStretch
      rw [dif_pos hn']
      refine Finset.sum_congr rfl fun l _ => ?_
      rw [labChunk_apply x2 ⟨n, ht⟩ l hn', pay3_chunk x0 x1 p ⟨n, ht⟩ hn' l]
      rfl
    · show k0_pay5 (F := Ideal) x0 ⟨n, ht⟩ _ _ (ix2 p (0 : Fin 1)) = _
      rw [pay5_apply, ih2]
      refine congrArg (_ + ·) ?_
      unfold zStretch
      rw [dif_pos hn']
      exact Finset.sum_congr rfl fun l _ => pay3_chunk x0 x1 p ⟨n, ht⟩ hn' l

/-- The first output block at row p: the row's sum over all columns carrying its label, own column zeroed. -/
theorem blockP : (carried x0 x3 x1 x2 k0_t1_loop.trips).1 (ix2 p (0 : Fin 1)) = ∑ j : Fin 131072, rowEzSame x0 x3 x1 x2 p j := by
  rw [trips_eq, (carried_apply x0 x3 x1 x2 p 16 le_rfl).1, Cert.Nca.sum_chunks, ← Fin.sum_univ_eq_sum_range]
  exact Finset.sum_congr rfl fun k _ => by unfold pStretch; rw [dif_pos k.isLt]

/-- The second output block at row p: the row's sum over all columns, own column zeroed. -/
theorem blockZ : (carried x0 x3 x1 x2 k0_t1_loop.trips).2 (ix2 p (0 : Fin 1)) = ∑ j : Fin 131072, rowEz x0 x1 p j := by
  rw [trips_eq, (carried_apply x0 x3 x1 x2 p 16 le_rfl).2, Cert.Nca.sum_chunks, ← Fin.sum_univ_eq_sum_range]
  exact Finset.sum_congr rfl fun k _ => by unfold zStretch; rw [dif_pos k.isLt]

end Rows

end Cert.Nca.Kernel

end
-- ==== Proof.KernelValue.lean ====
/-
  From the sixteen grid points' blocks to the two whole output columns.

  Point t stages rows 32 t … 32 t + 31: of the index column (the indexes reshaped to a column), of x, of the label
  column (each row's label reshaped to a column), and all of the labels (reshaped to one row). Row p of the point is
  row 32 t + p of the arrays, so by the row formulas the point's two output blocks hold, at row p, the sums P and Z of
  the specification at row 32 t + p. The sixteen blocks tile the 512 rows, so the two output columns hold P and Z.
-/
import proofs.«426123_j24352464569138_3_alg».proof.Proof.KernelSum
import Idealize.ShloMosaic.Lib.StableHlo.Run

set_option maxRecDepth 16384

noncomputable section

open scoped BigOperators

namespace Cert.Nca.Kernel

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The three argument arrays on core c. -/
abbrev xA (c : Dev nD) : FVec Ideal Cert.Nca.SX .f32 := m ((c : Thread nD τ).loc main_arg0)
abbrev labA (c : Dev nD) : IVec Cert.Nca.SL 32 := m ((c : Thread nD τ).loc main_arg1)
abbrev idxA (c : Dev nD) : IVec Cert.Nca.SB 32 := m ((c : Thread nD τ).loc main_arg2)

/-! ## The arrays the region finds -/

/-- The index column is the indexes, reshaped. -/
theorem V_v8 (c : Dev nD) : (V m c main_v8 : S512x1.Idx → BitVec 32) = shapeCast S512x1 (idxA m c) shapeCasts_S512_S512x1 := by
  show StableHlo.after hostOps0 (fun b => m (c, b)) (Proc.devRef .tc main_v8) = _
  after_results
  rfl

/-- The label column is each row's label, reshaped. -/
theorem V_v9 (c : Dev nD) : (V m c main_v9 : S512x1.Idx → BitVec 32)
    = shapeCast S512x1 (Cert.Nca.rowLabel (labA m c) (idxA m c)) shapeCasts_S512_S512x1 := by
  show StableHlo.after hostOps0 (fun b => m (c, b)) (Proc.devRef .tc main_v9) = _
  after_results
  rfl

/-- The label row is the labels, reshaped. -/
theorem V_v7 (c : Dev nD) : (V m c main_v7 : S1x131072.Idx → BitVec 32) = shapeCast S1x131072 (labA m c) shapeCasts_S131072_S1x131072 := by
  show StableHlo.after hostOps0 (fun b => m (c, b)) (Proc.devRef .tc main_v7) = _
  after_results
  rfl

/-! ## The blocks of one point -/

theorem N_eq : cfg0.N = 16 := by decide

/-- Row p of point t is row 32 t + p of the arrays. -/
def row (t : Fin cfg0.N) (p : Fin 32) : Fin 512 :=
  ⟨32 * t.val + p.val, by have ht : t.val < 16 := lt_of_lt_of_eq t.isLt N_eq; have := p.isLt; omega⟩

/-- The point's four input blocks, at their literal types. -/
abbrev idxBlk (c : Dev nD) (t : Fin cfg0.N) : Vec Ideal S32x1 .i32 := iblk m c 0 t
abbrev xBlk (c : Dev nD) (t : Fin cfg0.N) : Vec Ideal S32x131072 .f32 := iblk m c 1 t
abbrev labBlk (c : Dev nD) (t : Fin cfg0.N) : Vec Ideal S1x131072 .i32 := iblk m c 2 t
abbrev yBlk (c : Dev nD) (t : Fin cfg0.N) : Vec Ideal S32x1 .i32 := iblk m c 3 t

/-- The printed index maps over the grid: the row windows are at block row t, block column 0; the label row is at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem idxBlk_apply (c : Dev nD) (t : Fin cfg0.N) (p : Fin 32) :
    idxBlk m c t (ix2 p (0 : Fin 1)) = idxA m c (ix1 (row t p)) := by
  show V m c main_v8 (((cfg0.win 0).blk t).view.emb (ix2 p (0 : Fin 1))) = _
  rw [V_v8]
  obtain ⟨e0, e1, -⟩ := idx_facts t
  have he : ((cfg0.win 0).blk t).view.emb (ix2 p (0 : Fin 1)) = ix2 (row t p) (0 : Fin 1) := by
    funext a; apply Fin.ext
    match a with
    | ⟨0, _⟩ => show win0_0.index t (0 : Fin 2) * 32 + 1 * p.val = 32 * t.val + p.val; omega
    | ⟨1, _⟩ => show win0_0.index t (1 : Fin 2) * 1 + 1 * 0 = 0; omega
  rw [he, shapeCast_a_a1_apply]

theorem yBlk_apply (c : Dev nD) (t : Fin cfg0.N) (p : Fin 32) :
    yBlk m c t (ix2 p (0 : Fin 1)) = Cert.Nca.rowLabel (labA m c) (idxA m c) (ix1 (row t p)) := by
  show V m c main_v9 (((cfg0.win 3).blk t).view.emb (ix2 p (0 : Fin 1))) = _
  rw [V_v9]
  obtain ⟨-, -, -, -, -, -, e0, e1, -⟩ := idx_facts t
  have he : ((cfg0.win 3).blk t).view.emb (ix2 p (0 : Fin 1)) = ix2 (row t p) (0 : Fin 1) := by
    funext a; apply Fin.ext
    match a with
    | ⟨0, _⟩ => show win0_3.index t (0 : Fin 2) * 32 + 1 * p.val = 32 * t.val + p.val; omega
    | ⟨1, _⟩ => show win0_3.index t (1 : Fin 2) * 1 + 1 * 0 = 0; omega
  rw [he, shapeCast_a_a1_apply]

theorem xBlk_apply (c : Dev nD) (t : Fin cfg0.N) (p : Fin 32) (j : Fin 131072) :
    xBlk m c t (ix2 p j) = xA m c (ix2 (row t p) j) := by
  show V m c main_arg0 (((cfg0.win 1).blk t).view.emb (ix2 p j)) = _
  rw [V_main_arg0]
  obtain ⟨-, -, e0, e1, -⟩ := idx_facts t
  refine congrArg (xA m c) ?_
  funext a; apply Fin.ext
  match a with
  | ⟨0, _⟩ => show win0_1.index t (0 : Fin 2) * 32 + 1 * p.val = 32 * t.val + p.val; omega
  | ⟨1, _⟩ => show win0_1.index t (1 : Fin 2) * 131072 + 1 * j.val = j.val; omega

theorem labBlk_apply (c : Dev nD) (t : Fin cfg0.N) (j : Fin 131072) :
    labBlk m c t (ix2 (0 : Fin 1) j) = labA m c (ix1 j) := by
  show V m c main_v7 (((cfg0.win 2).blk t).view.emb (ix2 (0 : Fin 1) j)) = _
  rw [V_v7]
  obtain ⟨-, -, -, -, e0, e1, -⟩ := idx_facts t
  have he : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 131072 + 1 * j.val = j.val; omega
  rw [he, shapeCast_a_1a_apply]

/-- The point's first output block at row p is P at row 32 t + p … -/
theorem blockP_point (c : Dev nD) (t : Fin cfg0.N) (p : Fin 32) :
    (carried (idxBlk m c t) (yBlk m c t) (xBlk m c t) (labBlk m c t) k0_t1_loop.trips).1 (ix2 p (0 : Fin 1))
      = Cert.Nca.P (xA m c) (labA m c) (idxA m c) (ix1 (row t p)) := by
  rw [blockP]
  refine Finset.sum_congr rfl fun j _ => ?_
  unfold rowEzSame rowEz
  rw [idxBlk_apply, yBlk_apply, xBlk_apply, labBlk_apply]
  rfl

/-- … and its second output block is Z there. -/
theorem blockZ_point (c : Dev nD) (t : Fin cfg0.N) (p : Fin 32) :
    (carried (idxBlk m c t) (yBlk m c t) (xBlk m c t) (labBlk m c t) k0_t1_loop.trips).2 (ix2 p (0 : Fin 1))
      = Cert.Nca.Z (xA m c) (idxA m c) (ix1 (row t p)) := by
  rw [blockZ]
  refine Finset.sum_congr rfl fun j _ => ?_
  unfold rowEz
  rw [idxBlk_apply, xBlk_apply]
  rfl

end Cert.Nca.Kernel

end
-- ==== Proof.KernelFinal.lean ====
/-
  The kernel's result: the two output columns are the specification's P and Z as columns, and the host operations
  after the region are the specification's tail of them.
-/
import proofs.«426123_j24352464569138_3_alg».proof.Proof.KernelValue
import Idealize.ShloMosaic.Lib.StableHlo.Run

set_option maxRecDepth 16384

noncomputable section

open scoped BigOperators

namespace Cert.Nca.Kernel

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The specification's two vectors of row sums, as columns. -/
def Pcol (c : Dev nD) : Vec Ideal S512x1 .f32 :=
  shapeCast S512x1 (Cert.Nca.P (xA m c) (labA m c) (idxA m c)) shapeCasts_S512_S512x1
def Zcol (c : Dev nD) : Vec Ideal S512x1 .f32 :=
  shapeCast S512x1 (Cert.Nca.Z (xA m c) (idxA m c)) shapeCasts_S512_S512x1

/-- Entry y of point t's block of an output column is entry (32 t + y₀, y₁) of the column. -/
theorem emb4 (t : Fin cfg0.N) (y : S32x1.Idx) : ((cfg0.win 4).blk t).view.emb y = ix2 (row t (y 0)) (y 1) := by
  obtain ⟨-, -, -, -, -, -, -, -, e0, e1, -⟩ := idx_facts t
  funext a; apply Fin.ext
  match a with
  | ⟨0, _⟩ => show win0_4.index t (0 : Fin 2) * 32 + 1 * (y 0).val = 32 * t.val + (y 0).val; omega
  | ⟨1, _⟩ => show win0_4.index t (1 : Fin 2) * 1 + 1 * (y 1).val = (y 1).val; omega

theorem emb5 (t : Fin cfg0.N) (y : S32x1.Idx) : ((cfg0.win 5).blk t).view.emb y = ix2 (row t (y 0)) (y 1) := by
  obtain ⟨-, -, -, -, -, -, -, -, -, -, e0, e1⟩ := idx_facts t
  funext a; apply Fin.ext
  match a with
  | ⟨0, _⟩ => show win0_5.index t (0 : Fin 2) * 32 + 1 * (y 0).val = 32 * t.val + (y 0).val; omega
  | ⟨1, _⟩ => show win0_5.index t (1 : Fin 2) * 1 + 1 * (y 1).val = (y 1).val; omega

theorem block4_eq (c : Dev nD) (t : Fin cfg0.N) (y : S32x1.Idx) :
    (carried (idxBlk m c t) (yBlk m c t) (xBlk m c t) (labBlk m c t) k0_t1_loop.trips).1 y
      = Pcol m c (ix2 (row t (y 0)) (y 1)) := by
  obtain ⟨p, u, rfl⟩ : ∃ (p : Fin 32) (u : Fin 1), y = ix2 p u := ⟨y 0, y 1, eq_ix2 y⟩
  obtain rfl : u = 0 := Subsingleton.elim _ _
  rw [blockP_point]
  unfold Pcol
  exact (shapeCast_a_a1_apply _ _ _ _).symm

theorem block5_eq (c : Dev nD) (t : Fin cfg0.N) (y : S32x1.Idx) :
    (carried (idxBlk m c t) (yBlk m c t) (xBlk m c t) (labBlk m c t) k0_t1_loop.trips).2 y
      = Zcol m c (ix2 (row t (y 0)) (y 1)) := by
  obtain ⟨p, u, rfl⟩ : ∃ (p : Fin 32) (u : Fin 1), y = ix2 p u := ⟨y 0, y 1, eq_ix2 y⟩
  obtain rfl : u = 0 := Subsingleton.elim _ _
  rw [blockZ_point]
  unfold Zcol
  exact (shapeCast_a_a1_apply _ _ _ _).symm

set_option maxRecDepth 200000 in
/-- Point t's block of the column P, entry by entry. -/
theorem read4_eq (c : Dev nD) (t : Fin cfg0.N) :
    (fun y : S32x1.Idx => Pcol m c (ix2 (row t (y 0)) (y 1))) = ((cfg0.win 4).blk t).view.read (Elt Ideal) (Pcol m c) := by
  funext y
  show _ = Pcol m c (((cfg0.win 4).blk t).view.emb y)
  rw [emb4 t y]
  rfl

set_option maxRecDepth 200000 in
/-- Point t's block of the column Z, entry by entry. -/
theorem read5_eq (c : Dev nD) (t : Fin cfg0.N) :
    (fun y : S32x1.Idx => Zcol m c (ix2 (row t (y 0)) (y 1))) = ((cfg0.win 5).blk t).view.read (Elt Ideal) (Zcol m c) := by
  funext y
  show _ = Zcol m c (((cfg0.win 5).blk t).view.emb y)
  rw [emb5 t y]
  rfl

/-- What point t writes back to the first output column is its block of the column P. -/
theorem flushed4_eq (c : Dev nD) (t : Fin cfg0.N) :
    (dats m 0 c).flushed 4 t = ((cfg0.win 4).blk t).view.read (Elt Ideal) (Pcol m c) := by
  show (cfg0.win 4).cut (grid0.coords t) ((dats m 0 c).after 4 t) = _
  rw [after0_4]
  unfold outsAt0
  dsimp only
  rw [out4_eq]
  exact (funext (block4_eq m c t)).trans (read4_eq m c t)

theorem flushed5_eq (c : Dev nD) (t : Fin cfg0.N) :
    (dats m 0 c).flushed 5 t = ((cfg0.win 5).blk t).view.read (Elt Ideal) (Zcol m c) := by
  show (cfg0.win 5).cut (grid0.coords t) ((dats m 0 c).after 5 t) = _
  rw [after0_5]
  unfold outsAt0
  dsimp only
  rw [out5_eq]
  exact (funext (block5_eq m c t)).trans (read5_eq m c t)

theorem mem_blk4 (t : Fin cfg0.N) (i : S512x1.Idx) :
    i ∈ ((cfg0.win 4).blk t).view.set ↔ ∀ a : Fin 2, win0_4.index t a * S32x1.size a ≤ (i a).val ∧ (i a).val < win0_4.index t a * S32x1.size a + S32x1.size a := by
  show i ∈ ((View.whole main_v10_0).slice (win0_4.rect t)).set ↔ _
  rw [View.set_slice_whole, Rect.mem_set_unit]
  exact Iff.rfl

theorem mem_blk5 (t : Fin cfg0.N) (i : S512x1.Idx) :
    i ∈ ((cfg0.win 5).blk t).view.set ↔ ∀ a : Fin 2, win0_5.index t a * S32x1.size a ≤ (i a).val ∧ (i a).val < win0_5.index t a * S32x1.size a + S32x1.size a := by
  show i ∈ ((View.whole main_v10_1).slice (win0_5.rect t)).set ↔ _
  rw [View.set_slice_whole, Rect.mem_set_unit]
  exact Iff.rfl

/-- Row r of an output column is in the block of point r / 32. -/
theorem cover4 (i : S512x1.Idx) : ∃ t : Fin cfg0.N, (cfg0.win 4).flush t = true ∧ i ∈ ((cfg0.win 4).blk t).view.set := by
  have hi0 : (i 0).val < 512 := (i 0).isLt
  have hi1 : (i 1).val < 1 := (i 1).isLt
  have hN : (i 0).val / 32 < cfg0.N := by rw [N_eq]; omega
  refine ⟨⟨(i 0).val / 32, hN⟩, flush0_4 _, ?_⟩
  rw [mem_blk4]
  obtain ⟨-, -, -, -, -, -, -, -, e0, e1, -⟩ := idx_facts ⟨(i 0).val / 32, hN⟩
  intro a
  match a with
  | ⟨0, _⟩ =>
    show win0_4.index ⟨(i 0).val / 32, hN⟩ (0 : Fin 2) * 32 ≤ (i 0).val ∧ (i 0).val < win0_4.index ⟨(i 0).val / 32, hN⟩ (0 : Fin 2) * 32 + 32
    rw [e0]; show (i 0).val / 32 * 32 ≤ (i 0).val ∧ (i 0).val < (i 0).val / 32 * 32 + 32; omega
  | ⟨1, _⟩ =>
    show win0_4.index ⟨(i 0).val / 32, hN⟩ (1 : Fin 2) * 1 ≤ (i 1).val ∧ (i 1).val < win0_4.index ⟨(i 0).val / 32, hN⟩ (1 : Fin 2) * 1 + 1
    rw [e1]; omega

theorem cover5 (i : S512x1.Idx) : ∃ t : Fin cfg0.N, (cfg0.win 5).flush t = true ∧ i ∈ ((cfg0.win 5).blk t).view.set := by
  have hi0 : (i 0).val < 512 := (i 0).isLt
  have hi1 : (i 1).val < 1 := (i 1).isLt
  have hN : (i 0).val / 32 < cfg0.N := by rw [N_eq]; omega
  refine ⟨⟨(i 0).val / 32, hN⟩, flush0_5 _, ?_⟩
  rw [mem_blk5]
  obtain ⟨-, -, -, -, -, -, -, -, -, -, e0, e1⟩ := idx_facts ⟨(i 0).val / 32, hN⟩
  intro a
  match a with
  | ⟨0, _⟩ =>
    show win0_5.index ⟨(i 0).val / 32, hN⟩ (0 : Fin 2) * 32 ≤ (i 0).val ∧ (i 0).val < win0_5.index ⟨(i 0).val / 32, hN⟩ (0 : Fin 2) * 32 + 32
    rw [e0]; show (i 0).val / 32 * 32 ≤ (i 0).val ∧ (i 0).val < (i 0).val / 32 * 32 + 32; omega
  | ⟨1, _⟩ =>
    show win0_5.index ⟨(i 0).val / 32, hN⟩ (1 : Fin 2) * 1 ≤ (i 1).val ∧ (i 1).val < win0_5.index ⟨(i 0).val / 32, hN⟩ (1 : Fin 2) * 1 + 1
    rw [e1]; omega

/-- The two output columns after the region. -/
theorem final4 (c : Dev nD) : (dats m 0 c).arrAt 4 cfg0.N = Pcol m c :=
  (dats m 0 c).arrAt_eq_of_cover 4 (Pcol m c) (fun t _ => flushed4_eq m c t) cover4
theorem final5 (c : Dev nD) : (dats m 0 c).arrAt 5 cfg0.N = Zcol m c :=
  (dats m 0 c).arrAt_eq_of_cover 5 (Zcol m c) (fun t _ => flushed5_eq m c t) cover5

set_option maxHeartbeats 4000000 in
/-- The result buffer after the host operations that follow the region. -/
theorem tail_eq (c : Dev nD) :
    Pipeline.afterTail₀ cfgs (dats m) 0 (V0 m) [hostOps1, hostOps1_1, hostOps1_2, hostOps1_3, hostOps1_4] c main_v25
      = Cert.Nca.loss (xA m c) (labA m c) (idxA m c) := by
  unfold Pipeline.afterTail₀
  simp only [hostOps1, hostOps1_1, hostOps1_2, hostOps1_3, hostOps1_4, List.flatten_cons, List.flatten_nil, List.append_nil,
    List.cons_append, List.nil_append]
  after_results_simp
  have h4 : Pipeline.withArrays (cfgs 0).spec c (V0 m c) (fun w => (dats m 0 c).arrAt w (cfgs 0).N) (Proc.devRef .tc main_v10_0)
      = Pcol m c := (Pipeline.withArrays_arr spec0 launch0.win.arr_inj c _ _ 4).trans (final4 m c)
  have h5 : Pipeline.withArrays (cfgs 0).spec c (V0 m c) (fun w => (dats m 0 c).arrAt w (cfgs 0).N) (Proc.devRef .tc main_v10_1)
      = Zcol m c := (Pipeline.withArrays_arr spec0 launch0.win.arr_inj c _ _ 5).trans (final5 m c)
  rw [h4, h5]
  unfold Pcol Zcol Cert.Nca.loss
  generalize Cert.Nca.P (xA m c) (labA m c) (idxA m c) = p
  generalize Cert.Nca.Z (xA m c) (idxA m c) = z
  have ep : (fun i => shapeCast main_v11.ty.shape (shapeCast S512x1 p shapeCasts_S512_S512x1) shapeCasts_S512x1_S512 i) = p :=
    shapeCast_shapeCast p _ _
  have ez : (fun i => shapeCast main_v12.ty.shape (shapeCast S512x1 z shapeCasts_S512_S512x1) shapeCasts_S512x1_S512 i) = z :=
    shapeCast_shapeCast z _ _
  rw [ep, ez]
  rfl

end Cert.Nca.Kernel

end
-- ==== Proof.LibScatterSet.lean ====
/-
  A scatter whose body returns the update (an overwrite), read at one index of its result: the fold over the
  update indices leaves at operand index `i` the update element of an update index landing on `i` when all such
  update indices carry the same element there, and the operand's own element when no update index lands on `i`.
  Where an update index lands is start plus window coordinate on every axis.
-/
import Idealize.ShloMosaic.Lib.StableHlo.Run

namespace Cert.Halo.ScatterSet

open Idealize.ShloMosaic

section Fold

variable {ι κ α : Type}

/-- A step function that overwrites: entry `n` lands on `g n` (if anywhere), puts `v n` there and keeps every
    other place. -/
structure Overwrites (g : ι → Option κ) (v : ι → α) (stp : (κ → α) → ι → κ → α) : Prop where
  of_ne : ∀ r n i', g n ≠ some i' → stp r n i' = r i'
  of_eq : ∀ r n i', g n = some i' → stp r n i' = v n

variable {g : ι → Option κ} {v : ι → α} {stp : (κ → α) → ι → κ → α}

/-- Where no entry of the list lands, the fold keeps what was there. -/
theorem foldl_miss (hs : Overwrites g v stp) (i' : κ) :
    ∀ (L : List ι) (r : κ → α), (∀ n ∈ L, g n ≠ some i') → L.foldl stp r i' = r i'
  | [], _, _ => rfl
  | a :: t, r, h => by
    rw [List.foldl_cons, foldl_miss hs i' t _ fun n hn => h n (List.mem_cons_of_mem _ hn),
      hs.of_ne r a i' (h a List.mem_cons_self)]

/-- Where some entry of the list lands and every entry landing there carries the value `c`, the fold leaves `c`. -/
theorem foldl_hit (hs : Overwrites g v stp) (i' : κ) (c : α) (hv : ∀ n, g n = some i' → v n = c) :
    ∀ (L : List ι) (r : κ → α), (∃ n ∈ L, g n = some i') → L.foldl stp r i' = c
  | [], _, h => by obtain ⟨n, hn, _⟩ := h; exact absurd hn List.not_mem_nil
  | a :: t, r, h => by
    rw [List.foldl_cons]
    by_cases ht : ∃ n ∈ t, g n = some i'
    · exact foldl_hit hs i' c hv t _ ht
    · have hmiss : ∀ n ∈ t, g n ≠ some i' := fun n hn e => ht ⟨n, hn, e⟩
      rw [foldl_miss hs i' t _ hmiss]
      obtain ⟨n, hn, hg⟩ := h
      rcases List.mem_cons.mp hn with rfl | hn'
      · rw [hs.of_eq r n i' hg]; exact hv n hg
      · exact absurd hg (hmiss n hn')

end Fold

section Scatter

variable {s si u : Shape} {α : Type} {w : Nat}

/-- The overwriting scatter's step: update position `n` in row-major order, put where it lands. -/
def scatStep (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- The overwriting scatter is the fold of that step over the update positions. -/
theorem scatter_eq_foldl (d : ScatterDims s si u) (x : s.Idx → α) (idx : IVec si w) (upd : u.Idx → α) :
    Host.scatter d (fun _ b => b) x idx upd = (List.finRange u.numel).foldl (scatStep d idx upd) x := rfl

theorem scatStep_overwrites (d : ScatterDims s si u) (idx : IVec si w) (upd : u.Idx → α) :
    Overwrites (fun n => d.resultIdx? (u.rowMajor.symm n) idx) (fun n => upd (u.rowMajor.symm n)) (scatStep d idx upd) where
  of_ne r n i' h := by
    unfold scatStep
    cases hg : d.resultIdx? (u.rowMajor.symm n) idx with
    | none => rfl
    | some i =>
      have hne : i' ≠ i := fun e => h (by rw [hg, e])
      exact if_neg hne
  of_eq r n i' h := by
    unfold scatStep
    have h' : d.resultIdx? (u.rowMajor.symm n) idx = some i' := h
    rw [h']
    exact if_pos rfl

/-- An operand index no update index lands on keeps the operand's element. -/
theorem scatter_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_eq_foldl]
  exact foldl_miss (scatStep_overwrites d idx upd) i _ x fun n _ => h _

/-- An operand index update index `j₀` lands on, every update index landing there carrying `j₀`'s element, takes it. -/
theorem scatter_hit (d : ScatterDims s si u) (x : s.Idx → α) (idx : IVec si w) (upd : u.Idx → α) (i : s.Idx)
    (j₀ : u.Idx) (h₀ : d.resultIdx? j₀ idx = some i) (hu : ∀ j : u.Idx, d.resultIdx? j idx = some i → upd j = upd j₀) :
    Host.scatter d (fun _ b => b) x idx upd i = upd j₀ := by
  rw [scatter_eq_foldl]
  refine foldl_hit (scatStep_overwrites d idx upd) i (upd j₀) (fun n hn => hu _ hn) _ x
    ⟨u.rowMajor j₀, List.mem_finRange _, ?_⟩
  show d.resultIdx? (u.rowMajor.symm (u.rowMajor j₀)) idx = some i
  rw [Equiv.symm_apply_apply]; exact h₀

/-- Update index `j` lands on operand index `i` exactly when, on every axis, start plus window coordinate is `i`'s
    coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have := congrArg (fun f : s.Idx => (f a).val) e'
      simp only at this
      have h0 := (h a).1
      omega
    · intro e
      refine congrArg some (funext fun a => Fin.ext ?_)
      have := e a
      show (d.start j idx a + (d.window j a : Int)).toNat = (i a).val
      omega
  · rename_i h
    constructor
    · intro e; exact absurd e (by simp)
    · intro e
      exact absurd (fun a => by have := e a; have := (i a).isLt; constructor <;> omega) h

end Scatter

end Cert.Halo.ScatterSet
-- ==== Proof.RefValue.lean ====
/-
  The reference program's row sums and result, identified with the specification's.

  The scatter writes zero at the index pairs (row r wrapped by 512, indexes[r] wrapped by 131072), one pair per row.
  A row number is never negative and, under the hypothesis, neither is indexes[r], so both wraps are the identity:
  entry (r, j) of the scattered array is 0 when the word indexes[r] is the word of j and exp (x r j) otherwise.
  The mask is 1 or 0 as the row's label equals the column's, so the masked product keeps or drops the entry, and the
  two row sums are the specification's P and Z. The rest of the program is the specification's tail, operation by
  operation.
-/
import proofs.«426123_j24352464569138_3_alg».proof.Proof.Gen.ReferenceIdeal.Read
import proofs.«426123_j24352464569138_3_alg».proof.Proof.Spec
import proofs.«426123_j24352464569138_3_alg».proof.Proof.LibScatterSet
import Idealize.ShloMosaic.Lib.ValueIdx
import Idealize.ShloMosaic.Lib.Affine
import Idealize.ShloMosaic.Lib.Pipeline.Value
import Idealize.ShloMosaic.PureOps.Ideal
import Idealize.ShloMosaic.PureOps.Ideal.Laws

noncomputable section

open scoped BigOperators

namespace Cert.Nca.Ref

open Idealize.ShloMosaic Idealize.ShloMosaic.ValueIdx Cert.ReferenceIdeal Cert.ReferenceIdeal.Read
open Cert.Halo.ScatterSet

/-! ## Words -/

/-- A number below 2^31 is the signed reading of its 32-bit word. -/
theorem toInt_ofNat_small (n : Nat) (h : n < 2 ^ 31) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- A select whose condition "w < 0" fails keeps the word. -/
theorem select_slt_zero_of_nonneg {α : Type} (w : BitVec 32) (hw : 0 ≤ w.toInt) (a b : α) :
    Scalar.select (IntOp.cmpi .slt w 0#32) a b = b := by
  have hne : ¬ IntOp.cmpi .slt w 0#32 = 1#1 := fun e => by
    have := IntOp.cmpi_slt.1 e
    rw [show (0#32 : BitVec 32).toInt = 0 from by decide] at this
    omega
  rw [eq_zero_of_ne_one hne, select_zero]

/-! ## The index pairs -/

/-- The wrapped row number is the row number's word. -/
theorem row_word (r : Fin 512) : val_main_v6 (F := Ideal) (ix1 r) = BitVec.ofNat 32 r.val := by
  rw [val_main_v6_apply, val_main_v3_apply, val_main_v2_apply, val_main_c_apply, val_main_v1_apply]
  exact select_slt_zero_of_nonneg _ (by rw [toInt_ofNat_small _ (by have := r.isLt; show r.val < 2 ^ 31; omega)]; omega) _ _

/-- The wrapped own-column index is the index itself when that is not negative. -/
theorem own_word (x2 : IVec SB 32) (hnn : ∀ r : Fin 512, 0 ≤ (x2 (ix1 r)).toInt) (r : Fin 512) :
    val_main_v11 (F := Ideal) x2 (ix1 r) = x2 (ix1 r) := by
  rw [val_main_v11_apply, val_main_v8_apply, val_main_v7_apply, val_main_c_1_apply]
  exact select_slt_zero_of_nonneg _ (hnn r) _ _

/-- Column 0 of the index pairs holds the row numbers … -/
theorem pair_col0 (x2 : IVec SB 32) (r : Fin 512) :
    val_main_v14 (F := Ideal) x2 (ix2 r (0 : Fin 2)) = BitVec.ofNat 32 r.val := by
  unfold val_main_v14
  rw [concatenate_pair_apply_left (t := S512x2) (s₁ := S512x1) (s₂ := S512x1) (1 : Fin 2) _ _ _ (ix2 r (0 : Fin 2)) rfl (ix2 r (0 : Fin 1))
    (fun b => match b with | ⟨0, _⟩ => rfl | ⟨1, _⟩ => rfl)]
  rw [val_main_v12_apply, show idx_main_v12 (ix2 r (0 : Fin 1)) = ix1 r from
    funext fun a => match a with | ⟨0, _⟩ => rfl]
  exact row_word r

/-- … and column 1 the rows' own-column indices. -/
theorem pair_col1 (x2 : IVec SB 32) (hnn : ∀ r : Fin 512, 0 ≤ (x2 (ix1 r)).toInt) (r : Fin 512) :
    val_main_v14 (F := Ideal) x2 (ix2 r (1 : Fin 2)) = x2 (ix1 r) := by
  unfold val_main_v14
  rw [concatenate_pair_apply_right (t := S512x2) (s₁ := S512x1) (s₂ := S512x1) (1 : Fin 2) _ _ _ (ix2 r (1 : Fin 2)) rfl rfl (ix2 r (0 : Fin 1))
    (fun b => match b with | ⟨0, _⟩ => fun _ => rfl | ⟨1, _⟩ => fun hb => absurd rfl hb) rfl]
  rw [val_main_v13_apply, show idx_main_v13 (ix2 r (0 : Fin 1)) = ix1 r from
    funext fun a => match a with | ⟨0, _⟩ => rfl]
  exact own_word x2 hnn r

/-! ## Where an update lands -/

/-- The scatter's dimension numbers: update r goes to the one entry its index pair names. -/
abbrev sd : ScatterDims S512x131072 S512x2 S512 := scatter_S512x131072_S512x2_S512_n_01_01_1

/-- No window: both axes of the operand are inserted. -/
theorem window_zero (j : S512.Idx) (a : Fin 2) : sd.window j a = 0 := by
  unfold ScatterDims.window
  have h : ∀ a : Fin 2, a ∉ sd.sKept := by decide
  exact dif_neg (h a)

/-- On axis 0 update r' starts at column 0 of its pair … -/
theorem start0 (r' : Fin 512) (idx : IVec S512x2 32) :
    sd.start (ix1 r') idx (0 : Fin 2) = (idx (ix2 r' (0 : Fin 2))).toInt := by
  unfold ScatterDims.start
  rw [dif_pos (by decide)]
  congr 2
  funext b
  match b with
  | ⟨0, _⟩ => rfl
  | ⟨1, _⟩ => rfl

/-- … and on axis 1 at column 1. -/
theorem start1 (r' : Fin 512) (idx : IVec S512x2 32) :
    sd.start (ix1 r') idx (1 : Fin 2) = (idx (ix2 r' (1 : Fin 2))).toInt := by
  unfold ScatterDims.start
  rw [dif_pos (by decide)]
  congr 2
  funext b
  match b with
  | ⟨0, _⟩ => rfl
  | ⟨1, _⟩ => rfl

/-- Update r' lands on entry (r, j) exactly when r' is r and the row's index word is the word of j. -/
theorem lands_iff (x2 : IVec SB 32) (hnn : ∀ r : Fin 512, 0 ≤ (x2 (ix1 r)).toInt) (r' r : Fin 512) (j : Fin 131072) :
    sd.resultIdx? (ix1 r') (val_main_v14 (F := Ideal) x2) = some (ix2 r j) ↔
      r' = r ∧ x2 (ix1 r') = BitVec.ofNat 32 j.val := by
  have hr' : r'.val < 2 ^ 31 := by have := r'.isLt; omega
  have hj : j.val < 2 ^ 31 := by have := j.isLt; omega
  rw [resultIdx?_eq_some_iff]
  constructor
  · intro h
    have h0 := h (0 : Fin 2)
    have h1 := h (1 : Fin 2)
    rw [start0, window_zero, pair_col0, toInt_ofNat_small _ hr'] at h0
    rw [start1, window_zero, pair_col1 x2 hnn] at h1
    have e0 : ((ix2 r j (0 : Fin 2)).val : Int) = (r.val : Int) := rfl
    have e1 : ((ix2 r j (1 : Fin 2)).val : Int) = (j.val : Int) := rfl
    rw [e0] at h0
    rw [e1] at h1
    refine ⟨Fin.ext (by omega), BitVec.eq_of_toInt_eq ?_⟩
    rw [toInt_ofNat_small _ hj]
    omega
  · rintro ⟨rfl, hw⟩ a
    match a with
    | ⟨0, _⟩ =>
      show sd.start (ix1 r') _ (0 : Fin 2) + (sd.window (ix1 r') (0 : Fin 2) : Int) = (r'.val : Int)
      rw [start0, window_zero, pair_col0, toInt_ofNat_small _ hr']
      omega
    | ⟨1, _⟩ =>
      show sd.start (ix1 r') _ (1 : Fin 2) + (sd.window (ix1 r') (1 : Fin 2) : Int) = (j.val : Int)
      rw [start1, window_zero, pair_col1 x2 hnn, hw, toInt_ofNat_small _ hj]
      omega

/-! ## The scattered array -/

/-- Entry (r, j) after the scatter: zero at the row's own column, the exponential elsewhere. -/
theorem v16_apply (x0 : FVec Ideal SX .f32) (x2 : IVec SB 32) (hnn : ∀ r : Fin 512, 0 ≤ (x2 (ix1 r)).toInt)
    (r : Fin 512) (j : Fin 131072) : val_main_v16 (F := Ideal) x0 x2 (ix2 r j) = ez x0 x2 r j := by
  unfold val_main_v16 ez
  by_cases hit : x2 (ix1 r) = BitVec.ofNat 32 j.val
  · rw [if_pos hit]
    rw [scatter_hit sd _ _ _ (ix2 r j) (ix1 r) ((lands_iff x2 hnn r r j).2 ⟨rfl, hit⟩)
      (fun j' _ => by rw [val_main_v15_apply, val_main_v15_apply])]
    rw [val_main_v15_apply, val_main_cst_apply]
    exact Ideal.ofBits_zero_f32
  · rw [if_neg hit]
    rw [scatter_miss sd _ _ _ (ix2 r j) (fun j' e => by
      obtain ⟨r', rfl⟩ : ∃ r', j' = ix1 r' := ⟨j' 0, eq_ix1 j'⟩
      obtain ⟨rfl, hw⟩ := (lands_iff x2 hnn r' r j).1 e
      exact hit hw)]
    rfl

/-! ## The mask and the masked product -/

/-- The gather the program spends on the wrapped index is the specification's row label. -/
theorem v23_eq (x1 : IVec SL 32) (x2 : IVec SB 32) : val_main_v23 (F := Ideal) x1 x2 = rowLabel x1 x2 := rfl

/-- The mask at (r, j): one where the row's label is the column's, zero elsewhere. -/
theorem v29_apply (x1 : IVec SL 32) (x2 : IVec SB 32) (r : Fin 512) (j : Fin 131072) :
    val_main_v29 (F := Ideal) x1 x2 (ix2 r j) = if rowLabel x1 x2 (ix1 r) = x1 (ix1 j) then 1 else 0 := by
  rw [val_main_v29_apply, val_main_v28_apply, val_main_v26_apply, val_main_v24_apply, val_main_v27_apply,
    val_main_v25_apply]
  rw [show idx_main_v24 (idx_main_v26 (ix2 r j)) = ix1 r from funext fun a => match a with | ⟨0, _⟩ => rfl,
    show idx_main_v25 (idx_main_v27 (ix2 r j)) = ix1 j from funext fun a => match a with | ⟨0, _⟩ => rfl, v23_eq]
  by_cases e : rowLabel x1 x2 (ix1 r) = x1 (ix1 j)
  · rw [if_pos e, IntOp.cmpi_eq.2 e]
    show (((1#1 : BitVec 1).toNat : ℝ) : EReal) = 1
    simp
  · rw [if_neg e, eq_zero_of_ne_one (fun h => e (IntOp.cmpi_eq.1 h))]
    show (((0#1 : BitVec 1).toNat : ℝ) : EReal) = 0
    simp

/-- The masked product at (r, j): the entry kept where the labels agree, zero elsewhere (e * 1 = e and e * 0 = 0 on
    every extended real). -/
theorem v30_apply (x0 : FVec Ideal SX .f32) (x1 : IVec SL 32) (x2 : IVec SB 32)
    (hnn : ∀ r : Fin 512, 0 ≤ (x2 (ix1 r)).toInt) (r : Fin 512) (j : Fin 131072) :
    val_main_v30 (F := Ideal) x0 x1 x2 (ix2 r j) = ezSame x0 x1 x2 r j := by
  rw [val_main_v30_apply, v16_apply x0 x2 hnn, v29_apply]
  show ez x0 x2 r j * _ = _
  unfold ezSame
  split
  · exact mul_one _
  · exact mul_zero _

/-! ## The row sums -/

theorem v31_eq (x0 : FVec Ideal SX .f32) (x1 : IVec SL 32) (x2 : IVec SB 32)
    (hnn : ∀ r : Fin 512, 0 ≤ (x2 (ix1 r)).toInt) :
    Cert.ReferenceIdeal.Read.val_main_v31 (F := Ideal) x0 x1 x2 = Cert.Nca.P x0 x1 x2 := by
  funext i
  obtain ⟨r, rfl⟩ : ∃ r, i = ix1 r := ⟨i 0, eq_ix1 i⟩
  rw [val_main_v31_apply, val_main_cst_5_apply]
  show Ideal.ofBits .f32 0x00000000#32 + _ = ∑ j : Fin 131072, ezSame x0 x1 x2 r j
  rw [Ideal.ofBits_zero_f32, zero_add]
  refine Finset.sum_congr rfl fun k _ => ?_
  rw [show idx_main_v31 (ix1 r) k = ix2 r k from
    funext fun a => match a with | ⟨0, _⟩ => rfl | ⟨1, _⟩ => rfl]
  exact v30_apply x0 x1 x2 hnn r k

theorem v32_eq (x0 : FVec Ideal SX .f32) (x2 : IVec SB 32) (hnn : ∀ r : Fin 512, 0 ≤ (x2 (ix1 r)).toInt) :
    Cert.ReferenceIdeal.Read.val_main_v32 (F := Ideal) x0 x2 = Cert.Nca.Z x0 x2 := by
  funext i
  obtain ⟨r, rfl⟩ : ∃ r, i = ix1 r := ⟨i 0, eq_ix1 i⟩
  rw [val_main_v32_apply, val_main_cst_6_apply]
  show Ideal.ofBits .f32 0x00000000#32 + _ = ∑ j : Fin 131072, ez x0 x2 r j
  rw [Ideal.ofBits_zero_f32, zero_add]
  refine Finset.sum_congr rfl fun k _ => ?_
  rw [show idx_main_v32 (ix1 r) k = ix2 r k from
    funext fun a => match a with | ⟨0, _⟩ => rfl | ⟨1, _⟩ => rfl]
  exact v16_apply x0 x2 hnn r k

/-! ## The result -/

/-- After the two row sums the program is the specification's tail, operation by operation. -/
theorem v47_tail (x0 : FVec Ideal SX .f32) (x1 : IVec SL 32) (x2 : IVec SB 32) :
    val_main_v47 (F := Ideal) x0 x1 x2 = tail (val_main_v31 (F := Ideal) x0 x1 x2) (val_main_v32 (F := Ideal) x0 x2) := by
  unfold val_main_v47 val_main_v46 val_main_v45 val_main_v44 val_main_v43 val_main_v42 val_main_v41 val_main_v39
    val_main_v37 val_main_v36 val_main_v35 val_main_v33
  generalize val_main_v31 (F := Ideal) x0 x1 x2 = p
  generalize val_main_v32 (F := Ideal) x0 x2 = z
  rfl

theorem v47_eq (x0 : FVec Ideal SX .f32) (x1 : IVec SL 32) (x2 : IVec SB 32)
    (hnn : ∀ r : Fin 512, 0 ≤ (x2 (ix1 r)).toInt) :
    Cert.ReferenceIdeal.Read.val_main_v47 (F := Ideal) x0 x1 x2 = Cert.Nca.loss x0 x1 x2 := by
  rw [v47_tail, v31_eq x0 x1 x2 hnn, v32_eq x0 x2 hnn]
  rfl

end Cert.Nca.Ref

end
-- ==== Proof.PreDecode.lean ====
/-
  The precondition read back: a printed predicate that is the conjunction of two reductions by "and" is 1 only if
  each reduction is 1; the second runs over the comparisons "indexes[r] >= 0", so each of them is 1, which says
  that the word indexes[r], read signed, is not below zero.
-/
import proofs.«426123_j24352464569138_3_alg».proof.Pre_finite_inputs
import proofs.«426123_j24352464569138_3_alg».proof.Proof.Spec
import Idealize.ShloMosaic.Lib.ReduceAll
import Idealize.ShloMosaic.Lib.ValueIdx

namespace Cert.Nca

open Idealize.ShloMosaic Idealize.ShloMosaic.ValueIdx

/-- Under the precondition every row's index word is nonnegative as a signed integer. -/
theorem idx_nonneg [Cert.Pre_finite_inputs.Facts] (a0 : FVec Ideal Cert.Nca.SX .f32) (a1 : IVec Cert.Nca.SL 32)
    (a2 : IVec Cert.Nca.SB 32)
    (h : Cert.Pre_finite_inputs.fn (F := Ideal) a0 a1 a2 = fun _ => 1#1) (r : Fin 512) :
    0 ≤ (a2 (Idealize.ShloMosaic.ValueIdx.ix1 r)).toInt := by
  have h0 := congrFun h ix0
  dsimp only [Cert.Pre_finite_inputs.fn] at h0
  -- the conjunction's second operand is 1
  have h1 := (IntOp.andi_eq_one.1 h0).2
  haveI : Subsingleton Cert.Pre_finite_inputs.S_.Idx := ⟨fun a b => funext fun d => d.elim0⟩
  -- so is every comparison it reduces
  have h2 := Host.reduce_andi_all _ _ _ _ _ h1 (ix1 r)
  -- and a signed "greater or equal" that is 1 orders the two words
  have h3 := IntOp.cmpi_sge.1 h2
  exact h3

end Cert.Nca
-- ==== Proof.lean ====
/-
  The kernel and the reference compute one scalar from x (512 rows of 131072 reals), the labels of the 131072 columns
  and, for each row, the index of its own column, assumed not below zero.

  Both take exp x, put zero at each row's own column, and form per row the sum Z of the row and the sum P of its
  entries at the columns carrying the own column's label; both then apply the same scalar function of the two
  vectors P and Z (`Cert.Nca.tail`). The kernel finds the own column by comparing column numbers with the index,
  and sums each row in sixteen stretches of 8192 columns; the reference writes the zeros by a scatter at the index
  wrapped by the row length — the identity on an index that is not below zero, which is where the assumption is
  used — and sums each row at once. On the extended reals the two orders of summation agree, and multiplying by a
  0/1 mask is selecting against zero, so both results are `Cert.Nca.loss` of the three arrays
  (Proof/KernelFinal.lean for the kernel, Proof/RefValue.lean for the reference, Proof/PreDecode.lean for the
  assumption read off the precondition). The ideal pass rewrote nothing, so the preservation claim is trivial.
-/
import proofs.«426123_j24352464569138_3_alg».proof.Defs
import proofs.«426123_j24352464569138_3_alg».proof.Proof.Gen.Kernel
import proofs.«426123_j24352464569138_3_alg».proof.Proof.Gen.Kernel.Skeleton
import proofs.«426123_j24352464569138_3_alg».proof.Proof.Gen.Kernel.Loops
import proofs.«426123_j24352464569138_3_alg».proof.Proof.Gen.Kernel.Launch
import proofs.«426123_j24352464569138_3_alg».proof.Proof.Gen.Kernel.Points
import proofs.«426123_j24352464569138_3_alg».proof.Proof.Gen.Kernel.Frame
import proofs.«426123_j24352464569138_3_alg».proof.Proof.Gen.KernelIdeal
import proofs.«426123_j24352464569138_3_alg».proof.Proof.Gen.KernelIdeal.Skeleton
import proofs.«426123_j24352464569138_3_alg».proof.Proof.Gen.KernelIdeal.Loops
import proofs.«426123_j24352464569138_3_alg».proof.Proof.Gen.KernelIdeal.Launch
import proofs.«426123_j24352464569138_3_alg».proof.Proof.Gen.KernelIdeal.Points
import proofs.«426123_j24352464569138_3_alg».proof.Proof.Gen.KernelIdeal.Frame
import proofs.«426123_j24352464569138_3_alg».proof.Proof.Gen.ReferenceIdeal
import proofs.«426123_j24352464569138_3_alg».proof.Proof.Gen.Pre_finite_inputs
import proofs.«426123_j24352464569138_3_alg».proof.Proof.Gen.ReferenceIdeal.Run
import proofs.«426123_j24352464569138_3_alg».proof.Proof.Gen.ReferenceIdeal.Read
import proofs.«426123_j24352464569138_3_alg».proof.Proof.KernelFinal
import proofs.«426123_j24352464569138_3_alg».proof.Proof.RefValue
import proofs.«426123_j24352464569138_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

/-- The three programs run to the end and keep their arguments. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From arguments that agree, with every index not below zero, both programs end at `Cert.Nca.loss` of them. -/
theorem algebraic : Cert.algebraic_KernelIdeal_ReferenceIdeal := by
  intro m ρ m' ρ' hpre hagree
  refine ⟨fun c => Cert.Nca.loss (Cert.Nca.Kernel.xA m c) (Cert.Nca.Kernel.labA m c) (Cert.Nca.Kernel.idxA m c), ?_, ?_⟩
  · refine (θ_run Cert.KernelIdeal.defs _ _).mono (fun r h c => ⟨?_, ?_, ?_, ?_⟩) (Cert.KernelIdeal.Gen.run_main m ρ)
    · exact ((h c).2 Cert.KernelIdeal.main_v25 (Pipeline.mem_restRefs_of Cert.KernelIdeal.main_v25 (by decide) (by decide))).trans
        (Cert.Nca.Kernel.tail_eq m c)
    · exact ((h c).1 1).trans (((Cert.KernelIdeal.Gen.dats m 0 c).arrAt_in 1 rfl _).trans
        ((Cert.KernelIdeal.Gen.A_eq m c 1).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, (hagree c).1, (hagree c).2.1, (hagree c).2.2]
    exact Cert.Nca.Ref.v47_eq _ _ _ fun r => Cert.Nca.idx_nonneg _ _ _ (hpre c) r

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
